-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩

abbrev nBuf : Space → Nat
  | .hbm => 84
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S2x1600000, .i32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x128, .f32⟩
  | .hbm, ⟨75, _⟩ => ⟨S1700000x1, .f32⟩
  | .hbm, ⟨76, _⟩ => ⟨S1700000x128, .f32⟩
  | .hbm, ⟨77, _⟩ => ⟨S1700000x128, .f32⟩
  | .hbm, ⟨78, _⟩ => ⟨S_, .f32⟩
  | .hbm, ⟨79, _⟩ => ⟨S100000x128, .f32⟩
  | .hbm, ⟨80, _⟩ => ⟨S1700000x1, .i32⟩
  | .hbm, ⟨81, _⟩ => ⟨S100000x128, .f32⟩
  | .hbm, ⟨82, _⟩ => ⟨S1x128, .f32⟩
  | .hbm, ⟨83, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S2x1600000, .i32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x128, .f32⟩
  | .hbm, ⟨79, _⟩ => ⟨S1700000x1, .f32⟩
  | .hbm, ⟨80, _⟩ => ⟨S1700000x128, .f32⟩
  | .hbm, ⟨81, _⟩ => ⟨S1700000x128, .f32⟩
  | .hbm, ⟨82, _⟩ => ⟨S_, .f32⟩
  | .hbm, ⟨83, _⟩ => ⟨S100000x128, .f32⟩
  | .hbm, ⟨84, _⟩ => ⟨S1700000x1, .i32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | .hbm, ⟨89, _⟩ => ⟨S_, .f32⟩
  | .hbm, ⟨90, _⟩ => ⟨S100000x128, .f32⟩
  | .hbm, ⟨91, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_v65 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KPay.lean ====
/-
  What the two kinds of kernel body store, read at one element of the stored block. The product body stores
  (x · w)[r, c] = Σ_k x[r, k] · w[k, c] of its two loaded blocks: the change of float format before the product is
  the identity on the extended reals and the product accumulates into zero. The bias body stores
  max (a[r, c] + b[0, c]) 0 of its loaded block and its one-row bias.
-/
import proofs.«146691_j34677565948514_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-! ## The product's operand indices, axis by axis -/

theorem lhs_blk_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_blk_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_blk_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_blk_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry `k` of the row of `j` in a block of node features. -/
abbrev browAt (j : S5000x128.Idx) (k : Fin 128) : S5000x128.Idx := fun a => match a with
  | ⟨0, _⟩ => ⟨(j 0).val, (j 0).isLt⟩
  | ⟨1, _⟩ => ⟨k.val, k.isLt⟩
/-- Entry `k` of the column of `j` in the weight matrix. -/
abbrev bcolAt (j : S5000x128.Idx) (k : Fin 128) : S128x128.Idx := fun a => match a with
  | ⟨0, _⟩ => ⟨k.val, k.isLt⟩
  | ⟨1, _⟩ => ⟨(j 1).val, (j 1).isLt⟩

/-- The product of a block by the weight matrix into the zero accumulator, at an element: the sum over the contracted coordinate. -/
theorem matmul_blk_apply (x : FVec Ideal S5000x128 .bf16) (w : FVec Ideal S128x128 .bf16) (j : S5000x128.Idx) :
    matmul dot_S5000x128_S128x128_S5000x128_1_0_0_1_n_n none x w (constant S5000x128 .f32 0x00000000#32) j = ∑ k : Fin 128, x (browAt j k) * w (bcolAt j k) := by
  show FloatOps.matmul _ none x w (constant _ .f32 0x00000000#32) j = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = browAt j k := funext fun a => Fin.ext (by
    match a with
    | ⟨0, _⟩ => exact lhs_blk_0 _ _
    | ⟨1, _⟩ => exact (lhs_blk_1 _ _).trans hk)
  have er : dot_S5000x128_S128x128_S5000x128_1_0_0_1_n_n.rhsIdx j ((ValueIdx.contrEquiv1 dot_S5000x128_S128x128_S5000x128_1_0_0_1_n_n 128 rfl rfl).symm k) = bcolAt j k := funext fun a => Fin.ext (by
    match a with
    | ⟨0, _⟩ => exact (rhs_blk_0 _ _).trans hk
    | ⟨1, _⟩ => exact rhs_blk_1 _ _)
  rw [el, er]

/-! ## The two product bodies -/

/-- The first product body's stored block at an element. -/
theorem k0_pay1_apply (x0 : Vec Ideal S5000x128 .f32) (x1 : Vec Ideal S128x128 .f32) (j : S5000x128.Idx) :
    k0_pay1 (F := Ideal) x0 x1 j = ∑ k : Fin 128, x0 (browAt j k) * x1 (bcolAt j k) := by
  unfold k0_pay1
  exact matmul_blk_apply _ _ j

/-- The second product body's stored block at an element (it casts its block to its own shape first). -/
theorem k2_pay1_apply (x0 : Vec Ideal S5000x128 .f32) (x1 : Vec Ideal S128x128 .f32) (j : S5000x128.Idx) :
    k2_pay1 (F := Ideal) x0 x1 j = ∑ k : Fin 128, x0 (browAt j k) * x1 (bcolAt j k) := by
  unfold k2_pay1
  rw [shapeCast_self]
  exact matmul_blk_apply _ _ j

/-! ## The two bias bodies -/

/-- A bias body's stored block at an element: the block plus the bias row, then the positive part. -/
theorem k1_pay1_apply (x0 : Vec Ideal S5000x128 .f32) (x1 : Vec Ideal S1x128 .f32) (j : S5000x128.Idx) :
    k1_pay1 (F := Ideal) x0 x1 j = FloatOps.maximumf (F := Ideal) (φ := .f32) (FloatOps.addf (x0 j) (x1 (ix2 (0 : Fin 1) (⟨(j 1).val, (j 1).isLt⟩ : Fin 128))))
      (FloatOps.ofBits .f32 0x00000000#32) := by
  unfold k1_pay1
  rw [shapeCast_self, shapeCast_self]
  obtain ⟨p, q, rfl⟩ : ∃ (p : Fin 5000) (q : Fin 128), j = ix2 p q := ⟨j 0, j 1, eq_ix2 j⟩
  show FloatOps.maximumf (F := Ideal) (φ := .f32) (FloatOps.addf (F := Ideal) (φ := .f32) (x0 (ix2 p q)) (broadcastTo S5000x128 (x1 : S1x128.Idx → Ideal .f32) broadcasts_S1x128_S5000x128 (ix2 p q))) _ = _
  rw [broadcastTo_1b_ab_apply (x1 : S1x128.Idx → Ideal .f32) broadcasts_S1x128_S5000x128 p q]
  rfl

theorem k3_pay1_apply (x0 : Vec Ideal S5000x128 .f32) (x1 : Vec Ideal S1x128 .f32) (j : S5000x128.Idx) :
    k3_pay1 (F := Ideal) x0 x1 j = FloatOps.maximumf (F := Ideal) (φ := .f32) (FloatOps.addf (x0 j) (x1 (ix2 (0 : Fin 1) (⟨(j 1).val, (j 1).isLt⟩ : Fin 128))))
      (FloatOps.ofBits .f32 0x00000000#32) := by
  unfold k3_pay1
  rw [shapeCast_self, shapeCast_self]
  obtain ⟨p, q, rfl⟩ : ∃ (p : Fin 5000) (q : Fin 128), j = ix2 p q := ⟨j 0, j 1, eq_ix2 j⟩
  show FloatOps.maximumf (F := Ideal) (φ := .f32) (FloatOps.addf (F := Ideal) (φ := .f32) (x0 (ix2 p q)) (broadcastTo S5000x128 (x1 : S1x128.Idx → Ideal .f32) broadcasts_S1x128_S5000x128 (ix2 p q))) _ = _
  rw [broadcastTo_1b_ab_apply (x1 : S1x128.Idx → Ideal .f32) broadcasts_S1x128_S5000x128 p q]
  rfl

end Cert.KernelIdeal.Hand

end
-- ==== Proof.Spec.lean ====
/-
  The two dense stages of a graph-convolution layer as whole-array functions over the extended reals, index by
  index: the product of the node features with a weight matrix, (X·W)[r, c] = Σ_k X[r, k] · W[k, c], and the
  bias added along the rows followed by the positive part, max (A[r, c] + b[c]) 0. A layer is the second applied
  to the neighbourhood aggregation of the first, and the network is two layers; the aggregation (gather the
  source rows, scale by the edge weights, add into the destination rows) is a parameter here: both programs
  apply the same one, so nothing of it is ever opened.
-/
import Idealize.ShloMosaic.Lib.ValueIdx
import Idealize.ShloMosaic.Lib.ValueLayout
import Idealize.ShloMosaic.PureOps.Ideal.Laws

noncomputable section

namespace Cert.Spec

open Idealize.ShloMosaic Idealize.ShloMosaic.ValueIdx

/-- The node-feature arrays, the weight matrices, a bias as a one-row matrix and as a vector. -/
abbrev Nodes : Shape := ⟨2, ![100000, 128]⟩
abbrev Weights : Shape := ⟨2, ![128, 128]⟩
abbrev Row : Shape := ⟨2, ![1, 128]⟩
abbrev Bias : Shape := ⟨1, ![128]⟩

/-- Entry `k` of the row of `i`. -/
abbrev rowAt (i : Nodes.Idx) (k : Fin 128) : Nodes.Idx := fun a => match a with
  | ⟨0, _⟩ => ⟨(i 0).val, (i 0).isLt⟩
  | ⟨1, _⟩ => ⟨k.val, k.isLt⟩
/-- Entry `k` of the column of `i`. -/
abbrev colAt (i : Nodes.Idx) (k : Fin 128) : Weights.Idx := fun a => match a with
  | ⟨0, _⟩ => ⟨k.val, k.isLt⟩
  | ⟨1, _⟩ => ⟨(i 1).val, (i 1).isLt⟩

/-- The matrix product: (X·W)[r, c] = Σ_k X[r, k] · W[k, c]. -/
def mm (x : Nodes.Idx → EReal) (w : Weights.Idx → EReal) : Nodes.Idx → EReal :=
  fun i => ∑ k : Fin 128, x (rowAt i k) * w (colAt i k)

/-- The bias, a one-row matrix, added to every row, then the positive part. -/
def biasReluRow (a : Nodes.Idx → EReal) (b : Row.Idx → EReal) : Nodes.Idx → EReal :=
  fun i => FloatOps.maximumf (F := Ideal) (φ := .f32) (FloatOps.addf (a i) (b (ix2 (0 : Fin 1) (⟨(i 1).val, (i 1).isLt⟩ : Fin 128))))
    (FloatOps.ofBits .f32 0x00000000#32)

/-- The same with the bias a vector. -/
def biasRelu (a : Nodes.Idx → EReal) (b : Bias.Idx → EReal) : Nodes.Idx → EReal :=
  fun i => FloatOps.maximumf (F := Ideal) (φ := .f32) (FloatOps.addf (a i) (b (ix1 (⟨(i 1).val, (i 1).isLt⟩ : Fin 128))))
    (FloatOps.ofBits .f32 0x00000000#32)

/-- A bias vector viewed as a one-row matrix is the same bias. -/
theorem biasReluRow_shapeCast (a : Nodes.Idx → EReal) (b : Bias.Idx → EReal) (h : Bias.ShapeCasts Row) :
    biasReluRow a (shapeCast Row b h) = biasRelu a b := by
  funext i
  unfold biasReluRow biasRelu
  rw [shapeCast_a_1a_apply b h (0 : Fin 1) (⟨(i 1).val, (i 1).isLt⟩ : Fin 128)]

/-- One layer over an aggregation `agg`: max (agg (H·W) + b) 0. -/
def layer (agg : (Nodes.Idx → EReal) → (Nodes.Idx → EReal)) (h : Nodes.Idx → EReal) (w : Weights.Idx → EReal)
    (b : Bias.Idx → EReal) : Nodes.Idx → EReal :=
  biasRelu (agg (mm h w)) b

/-- The two-layer network over one aggregation. -/
def net (agg : (Nodes.Idx → EReal) → (Nodes.Idx → EReal)) (x : Nodes.Idx → EReal) (w1 : Weights.Idx → EReal)
    (b1 : Bias.Idx → EReal) (w2 : Weights.Idx → EReal) (b2 : Bias.Idx → EReal) : Nodes.Idx → EReal :=
  layer agg (layer agg x w1 b1) w2 b2

end Cert.Spec

end
-- ==== Proof.KRegion0.lean ====
/-
  Launch 0 of the kernel, the product of its node array by a weight matrix: the array it leaves is the product
  of the whole node array by the weight matrix. Point t of the twenty-point grid loads rows 5000·t … 5000·t + 4999
  of the node array and the whole weight matrix and stores their product as rows 5000·t … 5000·t + 4999 of the
  result; an element of the product depends on its own row of the node array only, so the stored block is that
  block of the whole product, and the twenty blocks tile the result.
-/
import proofs.«146691_j34677565948514_1_alg».proof.Proof.Gen.KernelIdeal.Frame
import proofs.«146691_j34677565948514_1_alg».proof.Proof.KPay
import proofs.«146691_j34677565948514_1_alg».proof.Proof.Spec
import Idealize.ShloMosaic.Lib.Pipeline.Value

set_option maxRecDepth 16384

noncomputable section

namespace Cert.KernelIdeal.Hand.R0

open Cert.KernelIdeal Cert.KernelIdeal.Gen Cert.KernelIdeal.Hand Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the node window and the result window are at block (t, 0), the weight window at (0, 0). -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The node window's block at point t is rows 5000·t … of the node array. -/
theorem nodes_blk (c : Dev nD) (t : Fin cfg0.N) (y : S5000x128.Idx) (i : S100000x128.Idx)
    (h0 : (i 0).val = t.val * 5000 + (y 0).val) (h1 : (i 1).val = (y 1).val) :
    (iblk0 V c 0 t : Vec Ideal S5000x128 .f32) y = (V c main_arg0 : S100000x128.Idx → Elt Ideal .f32) i := by
  obtain ⟨e0, e1, -⟩ := idx t
  unfold iblk0
  rw [View.read_apply]
  show V c main_arg0 _ = V c main_arg0 _
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The weight window's block at every point is the weight matrix. -/
theorem weights_blk (c : Dev nD) (t : Fin cfg0.N) (y : S128x128.Idx) (i : S128x128.Idx)
    (h0 : (i 0).val = (y 0).val) (h1 : (i 1).val = (y 1).val) :
    (iblk0 V c 1 t : Vec Ideal S128x128 .f32) y = (V c main_arg1 : S128x128.Idx → Elt Ideal .f32) i := by
  obtain ⟨-, -, e2, e3, -⟩ := idx t
  unfold iblk0
  rw [View.read_apply]
  show V c main_arg1 _ = V c main_arg1 _
  congr 1
  funext a
  apply Fin.ext
  match a with
  | ⟨0, _⟩ => show win0_1.index t (0 : Fin 2) * 128 + 1 * (y 0).val = (i 0).val; rw [e2, h0]; omega
  | ⟨1, _⟩ => show win0_1.index t (1 : Fin 2) * 128 + 1 * (y 1).val = (i 1).val; rw [e3, h1]; omega

/-- What point t writes back is block t of the product of the whole arrays. -/
theorem flushed_eq (c : Dev nD) (t : Fin cfg0.N) :
    (dat0 V c).flushed 2 t = ((cfg0.win 2).blk t).view.read (Elt Ideal) (Spec.mm (V c main_arg0) (V c main_arg1)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨-, -, -, -, e4, e5⟩ := idx t
  funext j
  show k0_pay1 (F := Ideal) (iblk0 V c 0 t) (iblk0 V c 1 t) j = Spec.mm (V c main_arg0) (V c main_arg1) (((cfg0.win 2).blk t).view.emb j)
  refine (k0_pay1_apply (iblk0 V c 0 t) (iblk0 V c 1 t) j).trans ?_
  have r0 : ((((cfg0.win 2).blk t).view.emb j) 0).val = t.val * 5000 + (j 0).val := by
    show win0_2.index t (0 : Fin 2) * 5000 + 1 * (j 0).val = _; rw [e4]; omega
  have r1 : ((((cfg0.win 2).blk t).view.emb j) 1).val = (j 1).val := by
    show win0_2.index t (1 : Fin 2) * 128 + 1 * (j 1).val = _; rw [e5]; omega
  refine Finset.sum_congr rfl fun k _ => ?_
  rw [nodes_blk V c t (browAt j k) (Spec.rowAt (((cfg0.win 2).blk t).view.emb j) k) r0 rfl,
    weights_blk V c t (bcolAt j k) (Spec.colAt (((cfg0.win 2).blk t).view.emb j) k) rfl r1]

/-- An index of the result is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row r of the result is in the block of point r / 5000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, e4, e5⟩ := idx t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 128 ≤ (i 1).val ∧ (i 1).val < win0_2.index t (1 : Fin 2) * 128 + 128; rw [e5]; omega

/-- The result array after the launch is the product of the arrays the launch found. -/
theorem arr_eq (c : Dev nD) : (dat0 V c).arrAt 2 cfg0.N = Spec.mm (V c main_arg0) (V c main_arg1) :=
  (dat0 V c).arrAt_eq_of_cover 2 (Spec.mm (V c main_arg0) (V c main_arg1)) (fun t _ => flushed_eq V c t) cover

end Cert.KernelIdeal.Hand.R0

end
-- ==== Proof.KRegion1.lean ====
/-
  Launch 1 of the kernel, the bias stage: the array it leaves is the bias row added to every row of the array it
  found, then the positive part. Point t of the twenty-point grid loads rows 5000·t … 5000·t + 4999 of the array and
  the one-row bias and stores max (a + b) 0 as the same rows of the result; the stage is elementwise in the array
  and reads the bias at the element's column, so the stored block is that block of the whole stage, and the
  twenty blocks tile the result.
-/
import proofs.«146691_j34677565948514_1_alg».proof.Proof.Gen.KernelIdeal.Frame
import proofs.«146691_j34677565948514_1_alg».proof.Proof.KPay
import proofs.«146691_j34677565948514_1_alg».proof.Proof.Spec
import Idealize.ShloMosaic.Lib.Pipeline.Value

set_option maxRecDepth 16384

noncomputable section

namespace Cert.KernelIdeal.Hand.R1

open Cert.KernelIdeal Cert.KernelIdeal.Gen Cert.KernelIdeal.Hand Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the array's window and the result's are at block (t, 0), the bias window at (0, 0). -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The array window's block at point t is rows 5000·t … of the array. -/
theorem nodes_blk (c : Dev nD) (t : Fin cfg1.N) (y : S5000x128.Idx) (i : S100000x128.Idx)
    (h0 : (i 0).val = t.val * 5000 + (y 0).val) (h1 : (i 1).val = (y 1).val) :
    (iblk1 V c 0 t : Vec Ideal S5000x128 .f32) y = (V c main_v43 : S100000x128.Idx → Elt Ideal .f32) i := by
  obtain ⟨e0, e1, -⟩ := idx t
  unfold iblk1
  rw [View.read_apply]
  show V c main_v43 _ = V c main_v43 _
  congr 1
  funext a
  apply Fin.ext
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- The bias window's block at every point is the bias row. -/
theorem bias_blk (c : Dev nD) (t : Fin cfg1.N) (y : S1x128.Idx) (i : S1x128.Idx)
    (h0 : (i 0).val = (y 0).val) (h1 : (i 1).val = (y 1).val) :
    (iblk1 V c 1 t : Vec Ideal S1x128 .f32) y = (V c main_v44 : S1x128.Idx → Elt Ideal .f32) i := by
  obtain ⟨-, -, e2, e3, -⟩ := idx t
  unfold iblk1
  rw [View.read_apply]
  show V c main_v44 _ = V c main_v44 _
  congr 1
  funext a
  apply Fin.ext
  match a with
  | ⟨0, _⟩ => show win1_1.index t (0 : Fin 2) * 1 + 1 * (y 0).val = (i 0).val; rw [e2, h0]; omega
  | ⟨1, _⟩ => show win1_1.index t (1 : Fin 2) * 128 + 1 * (y 1).val = (i 1).val; rw [e3, h1]; omega

/-- What point t writes back is block t of the bias stage of the whole arrays. -/
theorem flushed_eq (c : Dev nD) (t : Fin cfg1.N) :
    (dat1 V c).flushed 2 t = ((cfg1.win 2).blk t).view.read (Elt Ideal) (Spec.biasReluRow (V c main_v43) (V c main_v44)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨-, -, -, -, e4, e5⟩ := idx t
  funext j
  show k1_pay1 (F := Ideal) (iblk1 V c 0 t) (iblk1 V c 1 t) j = Spec.biasReluRow (V c main_v43) (V c main_v44) (((cfg1.win 2).blk t).view.emb j)
  refine (k1_pay1_apply (iblk1 V c 0 t) (iblk1 V c 1 t) j).trans ?_
  have r0 : ((((cfg1.win 2).blk t).view.emb j) 0).val = t.val * 5000 + (j 0).val := by
    show win1_2.index t (0 : Fin 2) * 5000 + 1 * (j 0).val = _; rw [e4]; omega
  have r1 : ((((cfg1.win 2).blk t).view.emb j) 1).val = (j 1).val := by
    show win1_2.index t (1 : Fin 2) * 128 + 1 * (j 1).val = _; rw [e5]; omega
  unfold Spec.biasReluRow
  rw [nodes_blk V c t j (((cfg1.win 2).blk t).view.emb j) r0 r1,
    bias_blk V c t (ix2 (0 : Fin 1) (⟨(j 1).val, (j 1).isLt⟩ : Fin 128))
      (ix2 (0 : Fin 1) (⟨((((cfg1.win 2).blk t).view.emb j) 1).val, ((((cfg1.win 2).blk t).view.emb j) 1).isLt⟩ : Fin 128)) rfl r1]

/-- An index of the result is in point t's block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- Row r of the result is in the block of point r / 5000. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, e4, e5⟩ := idx t
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; rw [e4, ht]; omega
  | ⟨1, _⟩ => show win1_2.index t (1 : Fin 2) * 128 ≤ (i 1).val ∧ (i 1).val < win1_2.index t (1 : Fin 2) * 128 + 128; rw [e5]; omega

/-- The result array after the launch is the bias stage of the arrays the launch found. -/
theorem arr_eq (c : Dev nD) : (dat1 V c).arrAt 2 cfg1.N = Spec.biasReluRow (V c main_v43) (V c main_v44) :=
  (dat1 V c).arrAt_eq_of_cover 2 (Spec.biasReluRow (V c main_v43) (V c main_v44)) (fun t _ => flushed_eq V c t) cover

end Cert.KernelIdeal.Hand.R1

end
-- ==== Proof.KRegion2.lean ====
/-
  Launch 2 of the kernel, the product of its node array by a weight matrix: the array it leaves is the product
  of the whole node array by the weight matrix. Point t of the twenty-point grid loads rows 5000·t … 5000·t + 4999
  of the node array and the whole weight matrix and stores their product as rows 5000·t … 5000·t + 4999 of the
  result; an element of the product depends on its own row of the node array only, so the stored block is that
  block of the whole product, and the twenty blocks tile the result.
-/
import proofs.«146691_j34677565948514_1_alg».proof.Proof.Gen.KernelIdeal.Frame
import proofs.«146691_j34677565948514_1_alg».proof.Proof.KPay
import proofs.«146691_j34677565948514_1_alg».proof.Proof.Spec
import Idealize.ShloMosaic.Lib.Pipeline.Value

set_option maxRecDepth 16384

noncomputable section

namespace Cert.KernelIdeal.Hand.R2

open Cert.KernelIdeal Cert.KernelIdeal.Gen Cert.KernelIdeal.Hand Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the node window and the result window are at block (t, 0), the weight window at (0, 0). -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The node window's block at point t is rows 5000·t … of the node array. -/
theorem nodes_blk (c : Dev nD) (t : Fin cfg2.N) (y : S5000x128.Idx) (i : S100000x128.Idx)
    (h0 : (i 0).val = t.val * 5000 + (y 0).val) (h1 : (i 1).val = (y 1).val) :
    (iblk2 V c 0 t : Vec Ideal S5000x128 .f32) y = (V c main_v45 : S100000x128.Idx → Elt Ideal .f32) i := by
  obtain ⟨e0, e1, -⟩ := idx t
  unfold iblk2
  rw [View.read_apply]
  show V c main_v45 _ = V c main_v45 _
  congr 1
  funext a
  apply Fin.ext
  match a with
  | ⟨0, _⟩ => show win2_0.index t (0 : Fin 2) * 5000 + 1 * (y 0).val = (i 0).val; rw [e0, h0]; omega
  | ⟨1, _⟩ => show win2_0.index t (1 : Fin 2) * 128 + 1 * (y 1).val = (i 1).val; rw [e1, h1]; omega

/-- The weight window's block at every point is the weight matrix. -/
theorem weights_blk (c : Dev nD) (t : Fin cfg2.N) (y : S128x128.Idx) (i : S128x128.Idx)
    (h0 : (i 0).val = (y 0).val) (h1 : (i 1).val = (y 1).val) :
    (iblk2 V c 1 t : Vec Ideal S128x128 .f32) y = (V c main_arg3 : S128x128.Idx → Elt Ideal .f32) i := by
  obtain ⟨-, -, e2, e3, -⟩ := idx t
  unfold iblk2
  rw [View.read_apply]
  show V c main_arg3 _ = V c main_arg3 _
  congr 1
  funext a
  apply Fin.ext
  match a with
  | ⟨0, _⟩ => show win2_1.index t (0 : Fin 2) * 128 + 1 * (y 0).val = (i 0).val; rw [e2, h0]; omega
  | ⟨1, _⟩ => show win2_1.index t (1 : Fin 2) * 128 + 1 * (y 1).val = (i 1).val; rw [e3, h1]; omega

/-- What point t writes back is block t of the product of the whole arrays. -/
theorem flushed_eq (c : Dev nD) (t : Fin cfg2.N) :
    (dat2 V c).flushed 2 t = ((cfg2.win 2).blk t).view.read (Elt Ideal) (Spec.mm (V c main_v45) (V c main_arg3)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨-, -, -, -, e4, e5⟩ := idx t
  funext j
  show k2_pay1 (F := Ideal) (iblk2 V c 0 t) (iblk2 V c 1 t) j = Spec.mm (V c main_v45) (V c main_arg3) (((cfg2.win 2).blk t).view.emb j)
  refine (k2_pay1_apply (iblk2 V c 0 t) (iblk2 V c 1 t) j).trans ?_
  have r0 : ((((cfg2.win 2).blk t).view.emb j) 0).val = t.val * 5000 + (j 0).val := by
    show win2_2.index t (0 : Fin 2) * 5000 + 1 * (j 0).val = _; rw [e4]; omega
  have r1 : ((((cfg2.win 2).blk t).view.emb j) 1).val = (j 1).val := by
    show win2_2.index t (1 : Fin 2) * 128 + 1 * (j 1).val = _; rw [e5]; omega
  refine Finset.sum_congr rfl fun k _ => ?_
  rw [nodes_blk V c t (browAt j k) (Spec.rowAt (((cfg2.win 2).blk t).view.emb j) k) r0 rfl,
    weights_blk V c t (bcolAt j k) (Spec.colAt (((cfg2.win 2).blk t).view.emb j) k) rfl r1]

/-- An index of the result is in point t's block iff each coordinate is in the block's range on its axis. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v46).slice (win2_2.rect t)).set ↔ _
  rw [View.set_slice_whole, Rect.mem_set_unit]
  exact Iff.rfl

/-- Row r of the result is in the block of point r / 5000. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, e4, e5⟩ := idx t
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; rw [e4, ht]; omega
  | ⟨1, _⟩ => show win2_2.index t (1 : Fin 2) * 128 ≤ (i 1).val ∧ (i 1).val < win2_2.index t (1 : Fin 2) * 128 + 128; rw [e5]; omega

/-- The result array after the launch is the product of the arrays the launch found. -/
theorem arr_eq (c : Dev nD) : (dat2 V c).arrAt 2 cfg2.N = Spec.mm (V c main_v45) (V c main_arg3) :=
  (dat2 V c).arrAt_eq_of_cover 2 (Spec.mm (V c main_v45) (V c main_arg3)) (fun t _ => flushed_eq V c t) cover

end Cert.KernelIdeal.Hand.R2

end
-- ==== Proof.KRegion3.lean ====
/-
  Launch 3 of the kernel, the bias stage: the array it leaves is the bias row added to every row of the array it
  found, then the positive part. Point t of the twenty-point grid loads rows 5000·t … 5000·t + 4999 of the array and
  the one-row bias and stores max (a + b) 0 as the same rows of the result; the stage is elementwise in the array
  and reads the bias at the element's column, so the stored block is that block of the whole stage, and the
  twenty blocks tile the result.
-/
import proofs.«146691_j34677565948514_1_alg».proof.Proof.Gen.KernelIdeal.Frame
import proofs.«146691_j34677565948514_1_alg».proof.Proof.KPay
import proofs.«146691_j34677565948514_1_alg».proof.Proof.Spec
import Idealize.ShloMosaic.Lib.Pipeline.Value

set_option maxRecDepth 16384

noncomputable section

namespace Cert.KernelIdeal.Hand.R3

open Cert.KernelIdeal Cert.KernelIdeal.Gen Cert.KernelIdeal.Hand Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the array's window and the result's are at block (t, 0), the bias window at (0, 0). -/
theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The array window's block at point t is rows 5000·t … of the array. -/
theorem nodes_blk (c : Dev nD) (t : Fin cfg3.N) (y : S5000x128.Idx) (i : S100000x128.Idx)
    (h0 : (i 0).val = t.val * 5000 + (y 0).val) (h1 : (i 1).val = (y 1).val) :
    (iblk3 V c 0 t : Vec Ideal S5000x128 .f32) y = (V c main_v59 : S100000x128.Idx → Elt Ideal .f32) i := by
  obtain ⟨e0, e1, -⟩ := idx t
  unfold iblk3
  rw [View.read_apply]
  show V c main_v59 _ = V c main_v59 _
  congr 1
  funext a
  apply Fin.ext
  match a with
  | ⟨0, _⟩ => show win3_0.index t (0 : Fin 2) * 5000 + 1 * (y 0).val = (i 0).val; rw [e0, h0]; omega
  | ⟨1, _⟩ => show win3_0.index t (1 : Fin 2) * 128 + 1 * (y 1).val = (i 1).val; rw [e1, h1]; omega

/-- The bias window's block at every point is the bias row. -/
theorem bias_blk (c : Dev nD) (t : Fin cfg3.N) (y : S1x128.Idx) (i : S1x128.Idx)
    (h0 : (i 0).val = (y 0).val) (h1 : (i 1).val = (y 1).val) :
    (iblk3 V c 1 t : Vec Ideal S1x128 .f32) y = (V c main_v60 : S1x128.Idx → Elt Ideal .f32) i := by
  obtain ⟨-, -, e2, e3, -⟩ := idx t
  unfold iblk3
  rw [View.read_apply]
  show V c main_v60 _ = V c main_v60 _
  congr 1
  funext a
  apply Fin.ext
  match a with
  | ⟨0, _⟩ => show win3_1.index t (0 : Fin 2) * 1 + 1 * (y 0).val = (i 0).val; rw [e2, h0]; omega
  | ⟨1, _⟩ => show win3_1.index t (1 : Fin 2) * 128 + 1 * (y 1).val = (i 1).val; rw [e3, h1]; omega

/-- What point t writes back is block t of the bias stage of the whole arrays. -/
theorem flushed_eq (c : Dev nD) (t : Fin cfg3.N) :
    (dat3 V c).flushed 2 t = ((cfg3.win 2).blk t).view.read (Elt Ideal) (Spec.biasReluRow (V c main_v59) (V c main_v60)) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  obtain ⟨-, -, -, -, e4, e5⟩ := idx t
  funext j
  show k3_pay1 (F := Ideal) (iblk3 V c 0 t) (iblk3 V c 1 t) j = Spec.biasReluRow (V c main_v59) (V c main_v60) (((cfg3.win 2).blk t).view.emb j)
  refine (k3_pay1_apply (iblk3 V c 0 t) (iblk3 V c 1 t) j).trans ?_
  have r0 : ((((cfg3.win 2).blk t).view.emb j) 0).val = t.val * 5000 + (j 0).val := by
    show win3_2.index t (0 : Fin 2) * 5000 + 1 * (j 0).val = _; rw [e4]; omega
  have r1 : ((((cfg3.win 2).blk t).view.emb j) 1).val = (j 1).val := by
    show win3_2.index t (1 : Fin 2) * 128 + 1 * (j 1).val = _; rw [e5]; omega
  unfold Spec.biasReluRow
  rw [nodes_blk V c t j (((cfg3.win 2).blk t).view.emb j) r0 r1,
    bias_blk V c t (ix2 (0 : Fin 1) (⟨(j 1).val, (j 1).isLt⟩ : Fin 128))
      (ix2 (0 : Fin 1) (⟨((((cfg3.win 2).blk t).view.emb j) 1).val, ((((cfg3.win 2).blk t).view.emb j) 1).isLt⟩ : Fin 128)) rfl r1]

/-- An index of the result is in point t's block iff each coordinate is in the block's range on its axis. -/
theorem mem_blk (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v61).slice (win3_2.rect t)).set ↔ _
  rw [View.set_slice_whole, Rect.mem_set_unit]
  exact Iff.rfl

/-- Row r of the result is in the block of point r / 5000. -/
theorem cover (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨-, -, -, -, e4, e5⟩ := idx t
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; rw [e4, ht]; omega
  | ⟨1, _⟩ => show win3_2.index t (1 : Fin 2) * 128 ≤ (i 1).val ∧ (i 1).val < win3_2.index t (1 : Fin 2) * 128 + 128; rw [e5]; omega

/-- The result array after the launch is the bias stage of the arrays the launch found. -/
theorem arr_eq (c : Dev nD) : (dat3 V c).arrAt 2 cfg3.N = Spec.biasReluRow (V c main_v59) (V c main_v60) :=
  (dat3 V c).arrAt_eq_of_cover 2 (Spec.biasReluRow (V c main_v59) (V c main_v60)) (fun t _ => flushed_eq V c t) cover

end Cert.KernelIdeal.Hand.R3

end
-- ==== Proof.RefValue.lean ====
/-
  The reference's result as the two-layer network of Spec.lean. Its program computes, once, the source and
  destination node of every edge (the given edges followed by one self loop per node) and the edge weights
  dinv[src] · dinv[dst]; then twice: the product with a weight matrix, the aggregation (gather the source rows
  of the product, scale by the edge weights, add into the destination rows of a zero array), the bias added
  along the rows and the positive part. The aggregation is named here as one function of the three edge arrays
  and the array it aggregates and is never opened; the product at an element is the sum over the contracted
  coordinate, and the bias stage at an element reads the bias at the element's column.
-/
import proofs.«146691_j34677565948514_1_alg».proof.Proof.RefRead
import proofs.«146691_j34677565948514_1_alg».proof.Proof.Spec

noncomputable section

namespace Cert.ReferenceIdeal.Hand

open Cert.ReferenceIdeal Cert.ReferenceIdeal.Gen Cert.ReferenceIdeal.ReadP Idealize.ShloMosaic Idealize.ShloMosaic.ValueIdx

section Aggregation

variable {F : FTy → Type} [FloatOps F]

/-- The aggregation of an array `y` of node rows over the edges: row `src[e]` of `y` (a negative index wrapped once),
    scaled by the edge weight, added into row `dst[e]` of a zero array. -/
def aggOf (src dst : (⟨S1700000, .i32⟩ : BufTy).Contents (Elt F)) (nrm : (⟨S1700000, .f32⟩ : BufTy).Contents (Elt F))
    (y : (⟨S100000x128, .f32⟩ : BufTy).Contents (Elt F)) : (⟨S100000x128, .f32⟩ : BufTy).Contents (Elt F) :=
  Host.scatterAdd (F := F) scatter_S100000x128_S1700000x1_S1700000x128_1_0_0_1
    (broadcastInDim S100000x128 ![] bcast_S_S100000x128 (constant (F := F) S_ .f32 0x00000000#32))
    (broadcastInDim S1700000x1 ![0] bcast_S1700000_S1700000x1_0 dst)
    (mulf (F := F)
      (Host.gather gather_S100000x128_S1700000x1_S1700000x128_1_0_n_n_0_1_1128 y
        (broadcastInDim S1700000x1 ![0] bcast_S1700000_S1700000x1_0
          (select (cmpi .slt src (broadcastInDim S1700000 ![] bcast_S_S1700000 (constantI S_ 32 0#32)))
            (addi src (broadcastInDim S1700000 ![] bcast_S_S1700000 (constantI S_ 32 100000#32))) src)))
      (broadcastInDim S1700000x128 ![0, 1] bcast_S1700000x1_S1700000x128_0_1
        (broadcastInDim S1700000x1 ![0] bcast_S1700000_S1700000x1_0 nrm)))

/-- The aggregation over the edges the program derives from its edge list. -/
def agg (e : (⟨S2x1600000, .i32⟩ : BufTy).Contents (Elt F)) (y : (⟨S100000x128, .f32⟩ : BufTy).Contents (Elt F)) : (⟨S100000x128, .f32⟩ : BufTy).Contents (Elt F) :=
  aggOf (val_main_v3 (F := F) e) (val_main_v6 (F := F) e) (val_main_v29 (F := F) e) y

variable (x0 : (⟨S100000x128, .f32⟩ : BufTy).Contents (Elt F)) (x1 : (⟨S128x128, .f32⟩ : BufTy).Contents (Elt F)) (x2 : (⟨S128, .f32⟩ : BufTy).Contents (Elt F))
  (x3 : (⟨S128x128, .f32⟩ : BufTy).Contents (Elt F)) (e : (⟨S2x1600000, .i32⟩ : BufTy).Contents (Elt F))

/-- The first layer's aggregate is the aggregation of the first product. -/
theorem v43_eq : val_main_v43 (F := F) x0 x1 e = agg e (val_main_v30 (F := F) x0 x1) := rfl

/-- The second layer's aggregate is the same aggregation of the second product. -/
theorem v61_eq : val_main_v61 (F := F) x0 x1 x2 x3 e = agg e (val_main_v48 (F := F) x0 x1 x2 x3 e) := rfl

end Aggregation

variable (x0 : (⟨S100000x128, .f32⟩ : BufTy).Contents (Elt Ideal)) (x1 : (⟨S128x128, .f32⟩ : BufTy).Contents (Elt Ideal)) (x2 : (⟨S128, .f32⟩ : BufTy).Contents (Elt Ideal))
  (x3 : (⟨S128x128, .f32⟩ : BufTy).Contents (Elt Ideal)) (x4 : (⟨S128, .f32⟩ : BufTy).Contents (Elt Ideal)) (e : (⟨S2x1600000, .i32⟩ : BufTy).Contents (Elt Ideal))

/-- The host's product at an element is the sum over the contracted coordinate. -/
theorem dot_eq_mm (h : (⟨S100000x128, .f32⟩ : BufTy).Contents (Elt Ideal)) (w : (⟨S128x128, .f32⟩ : BufTy).Contents (Elt Ideal)) :
    val_main_v30 (F := Ideal) h w = Spec.mm h w := by
  funext i
  exact (val_main_v30_apply h w i)

/-- A bias broadcast over the rows, added, and the positive part taken: the bias stage of Spec.lean. -/
theorem bias_stage_eq (a : (⟨S100000x128, .f32⟩ : BufTy).Contents (Elt Ideal)) (b : (⟨S128, .f32⟩ : BufTy).Contents (Elt Ideal)) :
    maximumf (F := Ideal) (φ := .f32) (addf (F := Ideal) (φ := .f32) a (val_main_v45 (F := Ideal) b)) (val_main_call1_v0 (F := Ideal)) = Spec.biasRelu a b := by
  funext i
  show FloatOps.maximumf (F := Ideal) (φ := .f32) (FloatOps.addf (F := Ideal) (φ := .f32) (a i) (val_main_v45 (F := Ideal) b i)) (val_main_call1_v0 (F := Ideal) i) = _
  rw [val_main_v45_apply, val_main_v44_apply, val_main_call1_v0_apply, val_main_call1_cst_apply]
  unfold Spec.biasRelu
  congr 3
  funext a
  match a with
  | ⟨0, _⟩ => rfl

/-- The reference's result is the network over its aggregation. -/
theorem result_eq : val_main_v65 (F := Ideal) x0 x1 x2 x3 x4 e = Spec.net (agg (F := Ideal) e) x0 x1 x2 x3 x4 := by
  have h1 : val_main_v47 (F := Ideal) x0 x1 x2 e = Spec.layer (agg (F := Ideal) e) x0 x1 x2 := by
    show maximumf (F := Ideal) (φ := .f32) (addf (F := Ideal) (φ := .f32) (val_main_v43 (F := Ideal) x0 x1 e) (val_main_v45 (F := Ideal) x2)) (val_main_call1_v0 (F := Ideal)) = _
    rw [bias_stage_eq, v43_eq, dot_eq_mm]
    rfl
  show maximumf (F := Ideal) (φ := .f32) (addf (F := Ideal) (φ := .f32) (val_main_v61 (F := Ideal) x0 x1 x2 x3 e) (val_main_v45 (F := Ideal) x4)) (val_main_call1_v0 (F := Ideal)) = _
  rw [bias_stage_eq, v61_eq]
  show Spec.biasRelu (agg (F := Ideal) e (val_main_v30 (F := Ideal) (val_main_v47 (F := Ideal) x0 x1 x2 e) x3)) x4 = _
  rw [dot_eq_mm, h1]
  rfl

end Cert.ReferenceIdeal.Hand

end
-- ==== Proof.KChain.lean ====
/-
  The idealized kernel's result as the two-layer network of Spec.lean over the reference's aggregation. The
  program is four launches among stretches of host operations, and the buffer contents at each boundary are a
  fold from the launch memory. Read through that fold: the host operations before the first launch compute the
  edges' sources, destinations and weights from the edge list, by the reference's own operations; no later
  operation and no launch writes those three arrays or an argument; each product launch leaves the product of
  the arrays it found, each bias launch the bias stage of the arrays it found; the stretch before a bias launch
  aggregates the product just made (gather, scale, add into a zero array: the reference's aggregation, term
  for term) and views the bias vector as a one-row matrix.
-/
import proofs.«146691_j34677565948514_1_alg».proof.Proof.Gen.KernelIdeal.Frame
import proofs.«146691_j34677565948514_1_alg».proof.Proof.KRegion0
import proofs.«146691_j34677565948514_1_alg».proof.Proof.KRegion1
import proofs.«146691_j34677565948514_1_alg».proof.Proof.KRegion2
import proofs.«146691_j34677565948514_1_alg».proof.Proof.KRegion3
import proofs.«146691_j34677565948514_1_alg».proof.Proof.RefValue
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

/-- A buffer that no operation of a stretch writes keeps its contents through the stretch. -/
local macro "unwritten" : tactic => `(tactic| (
  refine StableHlo.after_of_forall_not_mem _ _ (List.forall_iff_forall_mem.mp ?_)
  simp only [hostOps0, hostOps0_1, hostOps0_2, hostOps1, hostOps3, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## The edges, for any float values -/

section Edges

variable {F : FTy → Type} [FloatOps F]
variable (m : (ℓ : Loc nD τ sig) → Buf (Elt F) ℓ) (ρ : Dev nD → PrngReg)

/-- The edge list as launched. -/
abbrev edges (c : Dev nD) : (⟨S2x1600000, .i32⟩ : BufTy).Contents (Elt F) := m ((c : Thread nD τ).loc main_arg5)

set_option maxHeartbeats 4000000 in
theorem src_at1 (c : Dev nD) : W1 m ρ c (Proc.devRef .tc main_v3) = Cert.ReferenceIdeal.ReadP.val_main_v3 (F := F) (edges m c) := by
  show StableHlo.after hostOps0 (W0 m ρ c) (Proc.devRef .tc main_v3) = _
  after_results
  rfl
set_option maxHeartbeats 4000000 in
theorem dst_at1 (c : Dev nD) : W1 m ρ c (Proc.devRef .tc main_v6) = Cert.ReferenceIdeal.ReadP.val_main_v6 (F := F) (edges m c) := by
  show StableHlo.after hostOps0 (W0 m ρ c) (Proc.devRef .tc main_v6) = _
  after_results
  rfl
set_option maxHeartbeats 4000000 in
theorem pos_at1 (c : Dev nD) : W1 m ρ c (Proc.devRef .tc main_v12) = Cert.ReferenceIdeal.ReadP.val_main_v12 (F := F) (edges m c) := by
  show StableHlo.after hostOps0 (W0 m ρ c) (Proc.devRef .tc main_v12) = _
  after_results
  rfl
set_option maxHeartbeats 4000000 in
theorem rsq_at1 (c : Dev nD) : W1 m ρ c (Proc.devRef .tc main_v13) = Cert.ReferenceIdeal.ReadP.val_main_v13 (F := F) (edges m c) := by
  show StableHlo.after hostOps0 (W0 m ρ c) (Proc.devRef .tc main_v13) = _
  after_results
  rfl
set_option maxHeartbeats 4000000 in
theorem zero_at1 (c : Dev nD) : W1 m ρ c (Proc.devRef .tc main_cst_2) = Cert.ReferenceIdeal.ReadP.val_main_cst_2 (F := F) := by
  show StableHlo.after hostOps0 (W0 m ρ c) (Proc.devRef .tc main_cst_2) = _
  after_results
  rfl

set_option maxHeartbeats 4000000 in
/-- After the call that masks the reciprocal root: the per-node factor dinv. -/
theorem dinv_at2 (c : Dev nD) : W2 m ρ c (Proc.devRef .tc main_v14) = Cert.ReferenceIdeal.ReadP.val_main_v14 (F := F) (edges m c) := by
  show StableHlo.after hostOps0_1 (W1 m ρ c) (Proc.devRef .tc main_v14) = _
  have h12 := pos_at1 m ρ c
  have h13 := rsq_at1 m ρ c
  have h0 := zero_at1 m ρ c
  generalize W1 m ρ c = W at h12 h13 h0 ⊢
  after_results
  rw [h12, h13, h0]
  rfl

theorem src_at2 (c : Dev nD) : W2 m ρ c (Proc.devRef .tc main_v3) = Cert.ReferenceIdeal.ReadP.val_main_v3 (F := F) (edges m c) :=
  (by unwritten : W2 m ρ c (Proc.devRef .tc main_v3) = W1 m ρ c (Proc.devRef .tc main_v3)).trans (src_at1 m ρ c)
theorem dst_at2 (c : Dev nD) : W2 m ρ c (Proc.devRef .tc main_v6) = Cert.ReferenceIdeal.ReadP.val_main_v6 (F := F) (edges m c) :=
  (by unwritten : W2 m ρ c (Proc.devRef .tc main_v6) = W1 m ρ c (Proc.devRef .tc main_v6)).trans (dst_at1 m ρ c)

set_option maxHeartbeats 4000000 in
/-- Before the first launch: the edge weights dinv[src] · dinv[dst]. -/
theorem nrm_at3 (c : Dev nD) : W3 m ρ c (Proc.devRef .tc main_v29) = Cert.ReferenceIdeal.ReadP.val_main_v29 (F := F) (edges m c) := by
  show StableHlo.after hostOps0_2 (W2 m ρ c) (Proc.devRef .tc main_v29) = _
  have h14 := dinv_at2 m ρ c
  have h3 := src_at2 m ρ c
  have h6 := dst_at2 m ρ c
  generalize W2 m ρ c = W at h14 h3 h6 ⊢
  after_results
  rw [h14, h3, h6]
  rfl

theorem src_at3 (c : Dev nD) : W3 m ρ c (Proc.devRef .tc main_v3) = Cert.ReferenceIdeal.ReadP.val_main_v3 (F := F) (edges m c) :=
  (by unwritten : W3 m ρ c (Proc.devRef .tc main_v3) = W2 m ρ c (Proc.devRef .tc main_v3)).trans (src_at2 m ρ c)
theorem dst_at3 (c : Dev nD) : W3 m ρ c (Proc.devRef .tc main_v6) = Cert.ReferenceIdeal.ReadP.val_main_v6 (F := F) (edges m c) :=
  (by unwritten : W3 m ρ c (Proc.devRef .tc main_v6) = W2 m ρ c (Proc.devRef .tc main_v6)).trans (dst_at2 m ρ c)

/-! No launch and no later host operation writes the three edge arrays. -/

theorem src_at4 (c : Dev nD) : W4 m ρ c (Proc.devRef .tc main_v3) = Cert.ReferenceIdeal.ReadP.val_main_v3 (F := F) (edges m c) :=
  (W4_of_ne m ρ c main_v3 (by decide)).trans (src_at3 m ρ c)
theorem dst_at4 (c : Dev nD) : W4 m ρ c (Proc.devRef .tc main_v6) = Cert.ReferenceIdeal.ReadP.val_main_v6 (F := F) (edges m c) :=
  (W4_of_ne m ρ c main_v6 (by decide)).trans (dst_at3 m ρ c)
theorem nrm_at4 (c : Dev nD) : W4 m ρ c (Proc.devRef .tc main_v29) = Cert.ReferenceIdeal.ReadP.val_main_v29 (F := F) (edges m c) :=
  (W4_of_ne m ρ c main_v29 (by decide)).trans (nrm_at3 m ρ c)

theorem src_at7 (c : Dev nD) : W7 m ρ c (Proc.devRef .tc main_v3) = Cert.ReferenceIdeal.ReadP.val_main_v3 (F := F) (edges m c) :=
  (W7_of_ne m ρ c main_v3 (by decide)).trans ((W6_of_ne m ρ c main_v3 (by decide)).trans
    ((by unwritten : W5 m ρ c (Proc.devRef .tc main_v3) = W4 m ρ c (Proc.devRef .tc main_v3)).trans (src_at4 m ρ c)))
theorem dst_at7 (c : Dev nD) : W7 m ρ c (Proc.devRef .tc main_v6) = Cert.ReferenceIdeal.ReadP.val_main_v6 (F := F) (edges m c) :=
  (W7_of_ne m ρ c main_v6 (by decide)).trans ((W6_of_ne m ρ c main_v6 (by decide)).trans
    ((by unwritten : W5 m ρ c (Proc.devRef .tc main_v6) = W4 m ρ c (Proc.devRef .tc main_v6)).trans (dst_at4 m ρ c)))
theorem nrm_at7 (c : Dev nD) : W7 m ρ c (Proc.devRef .tc main_v29) = Cert.ReferenceIdeal.ReadP.val_main_v29 (F := F) (edges m c) :=
  (W7_of_ne m ρ c main_v29 (by decide)).trans ((W6_of_ne m ρ c main_v29 (by decide)).trans
    ((by unwritten : W5 m ρ c (Proc.devRef .tc main_v29) = W4 m ρ c (Proc.devRef .tc main_v29)).trans (nrm_at4 m ρ c)))

/-! The arguments where the launches and the bias views read them. -/

theorem arg0_at3 (c : Dev nD) : W3 m ρ c (Proc.devRef .tc main_arg0) = m ((c : Thread nD τ).loc main_arg0) :=
  ((by unwritten : W3 m ρ c (Proc.devRef .tc main_arg0) = W2 m ρ c (Proc.devRef .tc main_arg0)).trans ((by unwritten : W2 m ρ c (Proc.devRef .tc main_arg0) = W1 m ρ c (Proc.devRef .tc main_arg0)).trans (by unwritten : W1 m ρ c (Proc.devRef .tc main_arg0) = W0 m ρ c (Proc.devRef .tc main_arg0))))
theorem arg1_at3 (c : Dev nD) : W3 m ρ c (Proc.devRef .tc main_arg1) = m ((c : Thread nD τ).loc main_arg1) :=
  ((by unwritten : W3 m ρ c (Proc.devRef .tc main_arg1) = W2 m ρ c (Proc.devRef .tc main_arg1)).trans ((by unwritten : W2 m ρ c (Proc.devRef .tc main_arg1) = W1 m ρ c (Proc.devRef .tc main_arg1)).trans (by unwritten : W1 m ρ c (Proc.devRef .tc main_arg1) = W0 m ρ c (Proc.devRef .tc main_arg1))))
theorem arg2_at4 (c : Dev nD) : W4 m ρ c (Proc.devRef .tc main_arg2) = m ((c : Thread nD τ).loc main_arg2) :=
  (W4_of_ne m ρ c main_arg2 (by decide)).trans ((by unwritten : W3 m ρ c (Proc.devRef .tc main_arg2) = W2 m ρ c (Proc.devRef .tc main_arg2)).trans ((by unwritten : W2 m ρ c (Proc.devRef .tc main_arg2) = W1 m ρ c (Proc.devRef .tc main_arg2)).trans (by unwritten : W1 m ρ c (Proc.devRef .tc main_arg2) = W0 m ρ c (Proc.devRef .tc main_arg2))))
theorem arg3_at6 (c : Dev nD) : W6 m ρ c (Proc.devRef .tc main_arg3) = m ((c : Thread nD τ).loc main_arg3) :=
  (W6_of_ne m ρ c main_arg3 (by decide)).trans ((by unwritten : W5 m ρ c (Proc.devRef .tc main_arg3) = W4 m ρ c (Proc.devRef .tc main_arg3)).trans
    ((W4_of_ne m ρ c main_arg3 (by decide)).trans ((by unwritten : W3 m ρ c (Proc.devRef .tc main_arg3) = W2 m ρ c (Proc.devRef .tc main_arg3)).trans ((by unwritten : W2 m ρ c (Proc.devRef .tc main_arg3) = W1 m ρ c (Proc.devRef .tc main_arg3)).trans (by unwritten : W1 m ρ c (Proc.devRef .tc main_arg3) = W0 m ρ c (Proc.devRef .tc main_arg3))))))
theorem arg4_at7 (c : Dev nD) : W7 m ρ c (Proc.devRef .tc main_arg4) = m ((c : Thread nD τ).loc main_arg4) :=
  (W7_of_ne m ρ c main_arg4 (by decide)).trans ((W6_of_ne m ρ c main_arg4 (by decide)).trans
    ((by unwritten : W5 m ρ c (Proc.devRef .tc main_arg4) = W4 m ρ c (Proc.devRef .tc main_arg4)).trans
      ((W4_of_ne m ρ c main_arg4 (by decide)).trans ((by unwritten : W3 m ρ c (Proc.devRef .tc main_arg4) = W2 m ρ c (Proc.devRef .tc main_arg4)).trans ((by unwritten : W2 m ρ c (Proc.devRef .tc main_arg4) = W1 m ρ c (Proc.devRef .tc main_arg4)).trans (by unwritten : W1 m ρ c (Proc.devRef .tc main_arg4) = W0 m ρ c (Proc.devRef .tc main_arg4)))))))

/-! The two stretches before the bias launches: the aggregation of the product just made, and the bias as a row. -/

set_option maxHeartbeats 4000000 in
theorem agg_at5 (c : Dev nD) : W5 m ρ c (Proc.devRef .tc main_v43)
    = Cert.ReferenceIdeal.Hand.aggOf (F := F) (W4 m ρ c (Proc.devRef .tc main_v3)) (W4 m ρ c (Proc.devRef .tc main_v6)) (W4 m ρ c (Proc.devRef .tc main_v29)) (W4 m ρ c (Proc.devRef .tc main_v30)) := by
  show StableHlo.after hostOps1 (W4 m ρ c) (Proc.devRef .tc main_v43) = _
  generalize W4 m ρ c = W
  after_results
  rfl
set_option maxHeartbeats 4000000 in
theorem bias_at5 (c : Dev nD) : W5 m ρ c (Proc.devRef .tc main_v44)
    = shapeCast S1x128 (W4 m ρ c (Proc.devRef .tc main_arg2)) shapeCasts_S128_S1x128 := by
  show StableHlo.after hostOps1 (W4 m ρ c) (Proc.devRef .tc main_v44) = _
  generalize W4 m ρ c = W
  after_results
  rfl
set_option maxHeartbeats 4000000 in
theorem agg_at8 (c : Dev nD) : W8 m ρ c (Proc.devRef .tc main_v59)
    = Cert.ReferenceIdeal.Hand.aggOf (F := F) (W7 m ρ c (Proc.devRef .tc main_v3)) (W7 m ρ c (Proc.devRef .tc main_v6)) (W7 m ρ c (Proc.devRef .tc main_v29)) (W7 m ρ c (Proc.devRef .tc main_v46)) := by
  show StableHlo.after hostOps3 (W7 m ρ c) (Proc.devRef .tc main_v59) = _
  generalize W7 m ρ c = W
  after_results
  rfl
set_option maxHeartbeats 4000000 in
theorem bias_at8 (c : Dev nD) : W8 m ρ c (Proc.devRef .tc main_v60)
    = shapeCast S1x128 (W7 m ρ c (Proc.devRef .tc main_arg4)) shapeCasts_S128_S1x128 := by
  show StableHlo.after hostOps3 (W7 m ρ c) (Proc.devRef .tc main_v60) = _
  generalize W7 m ρ c = W
  after_results
  rfl

end Edges

/-! ## The four launches, on the extended reals -/

section Value

variable (m : (ℓ : Loc nD τ sig) → Buf (Elt Ideal) ℓ) (ρ : Dev nD → PrngReg)

/-- The first product. -/
theorem y1_at4 (c : Dev nD) : W4 m ρ c (Proc.devRef .tc main_v30)
    = Spec.mm (m ((c : Thread nD τ).loc main_arg0)) (m ((c : Thread nD τ).loc main_arg1)) := by
  refine (W4_arr m ρ c 2).trans ((R0.arr_eq (V3 m ρ) c).trans ?_)
  show Spec.mm (W3 m ρ c (Proc.devRef .tc main_arg0)) (W3 m ρ c (Proc.devRef .tc main_arg1)) = _
  rw [arg0_at3 m ρ c, arg1_at3 m ρ c]

/-- The first layer. -/
theorem h1_at6 (c : Dev nD) : W6 m ρ c (Proc.devRef .tc main_v45)
    = Spec.layer (Cert.ReferenceIdeal.Hand.agg (F := Ideal) (edges m c)) (m ((c : Thread nD τ).loc main_arg0)) (m ((c : Thread nD τ).loc main_arg1)) (m ((c : Thread nD τ).loc main_arg2)) := by
  refine (W6_arr m ρ c 2).trans ((R1.arr_eq (V5 m ρ) c).trans ?_)
  show Spec.biasReluRow (W5 m ρ c (Proc.devRef .tc main_v43)) (W5 m ρ c (Proc.devRef .tc main_v44)) = _
  rw [agg_at5 m ρ c, bias_at5 m ρ c]
  refine (Spec.biasReluRow_shapeCast _ _ _).trans ?_
  rw [src_at4 m ρ c, dst_at4 m ρ c, nrm_at4 m ρ c, y1_at4 m ρ c, arg2_at4 m ρ c]
  rfl

/-- The second product. -/
theorem y2_at7 (c : Dev nD) : W7 m ρ c (Proc.devRef .tc main_v46)
    = Spec.mm (Spec.layer (Cert.ReferenceIdeal.Hand.agg (F := Ideal) (edges m c)) (m ((c : Thread nD τ).loc main_arg0)) (m ((c : Thread nD τ).loc main_arg1)) (m ((c : Thread nD τ).loc main_arg2)))
        (m ((c : Thread nD τ).loc main_arg3)) := by
  refine (W7_arr m ρ c 2).trans ((R2.arr_eq (V6 m ρ) c).trans ?_)
  show Spec.mm (W6 m ρ c (Proc.devRef .tc main_v45)) (W6 m ρ c (Proc.devRef .tc main_arg3)) = _
  rw [h1_at6 m ρ c, arg3_at6 m ρ c]

/-- The result buffer at the last boundary is the network. -/
theorem result_at9 (c : Dev nD) : W9 m ρ c (Proc.devRef .tc main_v61)
    = Spec.net (Cert.ReferenceIdeal.Hand.agg (F := Ideal) (edges m c)) (m ((c : Thread nD τ).loc main_arg0)) (m ((c : Thread nD τ).loc main_arg1)) (m ((c : Thread nD τ).loc main_arg2))
        (m ((c : Thread nD τ).loc main_arg3)) (m ((c : Thread nD τ).loc main_arg4)) := by
  refine (W9_arr m ρ c 2).trans ((R3.arr_eq (V8 m ρ) c).trans ?_)
  show Spec.biasReluRow (W8 m ρ c (Proc.devRef .tc main_v59)) (W8 m ρ c (Proc.devRef .tc main_v60)) = _
  rw [agg_at8 m ρ c, bias_at8 m ρ c]
  refine (Spec.biasReluRow_shapeCast _ _ _).trans ?_
  rw [src_at7 m ρ c, dst_at7 m ρ c, nrm_at7 m ρ c, y2_at7 m ρ c, arg4_at7 m ρ c]
  rfl

end Value

end Cert.KernelIdeal.Hand

end
-- ==== Proof.lean ====
/-
  A two-layer graph convolution: with the edge list extended by one self loop per node, deg the number of edges
  into each node, dinv = deg^(-1/2) where deg > 0 and 0 elsewhere, and the edge weight dinv[src] · dinv[dst], each
  layer is  H ↦ max (A (H · W) + b) 0,  where A gathers the source rows, scales them by the edge weights and adds
  them into the destination rows of a zero array. The kernel computes H · W and max (· + b) 0 in launches over
  twenty blocks of 5000 rows and everything else on the host; the reference computes all of it on the host.

  On the extended reals the two agree, and finiteness of the inputs is never used: a product launch changes the
  float format of its operands before multiplying, which is the identity there, and accumulates into zero, so a
  block of its result is that block of the whole product, an element depending on its own row only; a bias
  launch is elementwise with the bias read at the element's column; and the host operations between the
  launches are the reference's own, applied to equal arrays (Spec.lean states the network; KPay.lean, KRegion0 to
  KRegion3 and KChain.lean read the kernel's result, RefValue.lean the reference's).

  The three programs run to the end without a fault and leave their arguments as they found them; the kernel's
  idealization rewrote nothing, so it is the kernel's own text read on the extended reals.
-/
import proofs.«146691_j34677565948514_1_alg».proof.Defs
import proofs.«146691_j34677565948514_1_alg».proof.Proof.Gen.Kernel
import proofs.«146691_j34677565948514_1_alg».proof.Proof.Gen.Kernel.Skeleton
import proofs.«146691_j34677565948514_1_alg».proof.Proof.Gen.Kernel.Launch
import proofs.«146691_j34677565948514_1_alg».proof.Proof.Gen.Kernel.Points
import proofs.«146691_j34677565948514_1_alg».proof.Proof.Gen.Kernel.Frame
import proofs.«146691_j34677565948514_1_alg».proof.Proof.Gen.KernelIdeal
import proofs.«146691_j34677565948514_1_alg».proof.Proof.Gen.KernelIdeal.Skeleton
import proofs.«146691_j34677565948514_1_alg».proof.Proof.Gen.KernelIdeal.Launch
import proofs.«146691_j34677565948514_1_alg».proof.Proof.Gen.KernelIdeal.Points
import proofs.«146691_j34677565948514_1_alg».proof.Proof.Gen.KernelIdeal.Frame
import proofs.«146691_j34677565948514_1_alg».proof.Proof.Gen.ReferenceIdeal
import proofs.«146691_j34677565948514_1_alg».proof.Proof.Gen.Pre_finite_inputs
import proofs.«146691_j34677565948514_1_alg».proof.Proof.KRun
import proofs.«146691_j34677565948514_1_alg».proof.Proof.KChain
import proofs.«146691_j34677565948514_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end with the two-layer network of their (equal) arguments over the one aggregation. -/
theorem algebraic : Cert.algebraic_KernelIdeal_ReferenceIdeal := by
  intro m ρ m' ρ' _ hagree
  refine ⟨fun c => Cert.Spec.net (Cert.ReferenceIdeal.Hand.agg (F := Ideal) (Cert.KernelIdeal.Hand.edges m c))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Hand.result_at9 m ρ c), (h c).2⟩)
      (Cert.KernelIdeal.GenP.run_result (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5⟩ := hagree c
    rw [Cert.ReferenceIdeal.ReadP.val_main_v65_eq, Cert.ReferenceIdeal.Hand.result_eq, h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
